-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S2x16000000 : Shape := ⟨2, ![2, 16000000]⟩
abbrev S16000000x2 : Shape := ⟨2, ![16000000, 2]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S16000000x2 : S_.BroadcastsInDim S16000000x2 (![] : Fin 0 → Fin S16000000x2.rank)
  reducesTo_S16000000x2_S_d0_1 : S16000000x2.ReducesTo [0, 1] S_

variable [Facts]

def fn {F : FTy → Type} [FloatOps F] (main_arg0 : FVec F S1000000x4 .f32) (main_arg1 : IVec S2x16000000 32) (main_arg2 : FVec F S16000000x2 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S16000000x2 .f32 := Host.absf main_arg2
  let main_cst_0 : FVec F S_ .f32 := constant S_ .f32 0x7F800000#32
  let main_v5 : FVec F S16000000x2 .f32 := broadcastInDim S16000000x2 ![] bcast_S_S16000000x2 main_cst_0
  let main_v6 : IVec S16000000x2 1 := cmpf .olt main_v4 main_v5
  let main_c_1 : IVec S_ 1 := constantI S_ 1 1#1
  let main_v7 : IVec S_ 1 := (fun x v => Host.reduce IntOp.andi x v reducesTo_S16000000x2_S_d0_1 h_S_) main_v6 main_c_1
  let main_v8 : IVec S_ 1 := andi main_v3 main_v7
  main_v8
-- ==== Kernel.lean ====
abbrev S1000000x4 : Shape := ⟨2, ![1000000, 4]⟩
abbrev S2x16000000 : Shape := ⟨2, ![2, 16000000]⟩
abbrev S16000000x2 : Shape := ⟨2, ![16000000, 2]⟩
abbrev S1000000x1 : Shape := ⟨2, ![1000000, 1]⟩
abbrev S1000000 : Shape := ⟨1, ![1000000]⟩
abbrev S16000000x1 : Shape := ⟨2, ![16000000, 1]⟩
abbrev S16000000 : Shape := ⟨1, ![16000000]⟩
abbrev S1x16000000 : Shape := ⟨2, ![1, 16000000]⟩
abbrev S_ : Shape := ⟨0, ![]⟩
abbrev S125000x128 : Shape := ⟨2, ![125000, 128]⟩
abbrev S5000x128 : Shape := ⟨2, ![5000, 128]⟩

abbrev nBuf : Space → Nat
  | .hbm => 38
  | .vmem => 8
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x2, .f32⟩
  | .hbm, ⟨3, _⟩ => ⟨S1000000x1, .f32⟩
  | .hbm, ⟨4, _⟩ => ⟨S1000000, .f32⟩
  | .hbm, ⟨5, _⟩ => ⟨S16000000x1, .f32⟩
  | .hbm, ⟨6, _⟩ => ⟨S16000000, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S125000x128, .f32⟩
  | .hbm, ⟨30, _⟩ => ⟨S125000x128, .f32⟩
  | .hbm, ⟨31, _⟩ => ⟨S125000x128, .f32⟩
  | .hbm, ⟨32, _⟩ => ⟨S125000x128, .f32⟩
  | .hbm, ⟨33, _⟩ => ⟨S16000000, .f32⟩
  | .hbm, ⟨34, _⟩ => ⟨S_, .f32⟩
  | .hbm, ⟨35, _⟩ => ⟨S1000000, .f32⟩
  | .hbm, ⟨36, _⟩ => ⟨S16000000x1, .i32⟩
  | .hbm, ⟨37, _⟩ => ⟨S1000000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1000000x4_S1000000x1_0_0 : S1000000x4.Slices ![0, 0] S1000000x1
  shapeCasts_S1000000x1_S1000000 : S1000000x1.ShapeCasts S1000000
  slices_S16000000x2_S16000000x1_0_0 : S16000000x2.Slices ![0, 0] S16000000x1
  shapeCasts_S16000000x1_S16000000 : S16000000x1.ShapeCasts S16000000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  bcast_S_S1000000 : S_.BroadcastsInDim S1000000 (![] : Fin 0 → Fin S1000000.rank)
  gather_S1000000_S16000000x1_S16000000_n_0_n_n_0_1_1_wf : GatherDims.WF S1000000 S16000000x1 S16000000 [] [0] [] [0] [] 1 ![1]
  scatter_S1000000_S16000000x1_S16000000_n_0_0_1_wf : ScatterDims.WF S1000000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S2x16000000 : Shape := ⟨2, ![2, 16000000]⟩
abbrev S16000000x2 : Shape := ⟨2, ![16000000, 2]⟩
abbrev S1000000x1 : Shape := ⟨2, ![1000000, 1]⟩
abbrev S1000000 : Shape := ⟨1, ![1000000]⟩
abbrev S16000000x1 : Shape := ⟨2, ![16000000, 1]⟩
abbrev S16000000 : Shape := ⟨1, ![16000000]⟩
abbrev S1x16000000 : Shape := ⟨2, ![1, 16000000]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x2, .f32⟩
  | .hbm, ⟨3, _⟩ => ⟨S1000000x1, .f32⟩
  | .hbm, ⟨4, _⟩ => ⟨S1000000, .f32⟩
  | .hbm, ⟨5, _⟩ => ⟨S16000000x1, .f32⟩
  | .hbm, ⟨6, _⟩ => ⟨S16000000, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S16000000, .f32⟩
  | .hbm, ⟨30, _⟩ => ⟨S_, .f32⟩
  | .hbm, ⟨31, _⟩ => ⟨S16000000, .f32⟩
  | .hbm, ⟨32, _⟩ => ⟨S16000000, .i1⟩
  | .hbm, ⟨33, _⟩ => ⟨S_, .f32⟩
  | .hbm, ⟨34, _⟩ => ⟨S16000000, .f32⟩
  | .hbm, ⟨35, _⟩ => ⟨S16000000, .f32⟩
  | .hbm, ⟨36, _⟩ => ⟨S16000000, .f32⟩
  | .hbm, ⟨37, _⟩ => ⟨S16000000, .f32⟩
  | .hbm, ⟨38, _⟩ => ⟨S_, .f32⟩
  | .hbm, ⟨39, _⟩ => ⟨S16000000, .f32⟩
  | .hbm, ⟨40, _⟩ => ⟨S16000000, .f32⟩
  | .hbm, ⟨41, _⟩ => ⟨S_, .f32⟩
  | .hbm, ⟨42, _⟩ => ⟨S1000000, .f32⟩
  | .hbm, ⟨43, _⟩ => ⟨S16000000x1, .i32⟩
  | .hbm, ⟨44, _⟩ => ⟨S1000000, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_call1_v0 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S1000000x4_S1000000x1_0_0 : S1000000x4.Slices ![0, 0] S1000000x1
  shapeCasts_S1000000x1_S1000000 : S1000000x1.ShapeCasts S1000000
  slices_S16000000x2_S16000000x1_0_0 : S16000000x2.Slices ![0, 0] S16000000x1
  shapeCasts_S16000000x1_S16000000 : S16000000x1.ShapeCasts S16000000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000 : S_.BroadcastsInDim S1000000 (![] : Fin 0 → Fin S1000000.rank)
  gather_S1000000_S16000000x1_S16000000_n_0_n_n_0_1_1_wf : GatherDims.WF S1000000 S16000000x1 S16000000 [] [0] [] [0] [] 1 ![1]
  scatter_S1000000_S16000000x1_S16000000_n_0_0_1_wf : ScatterDims.WF S1000000 S16000000x1 S16000000 [] [0] [0] 1

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf

class Facts : Prop extends Facts₀ where

variable [Facts]
-- ==== Proof.Upwind.lean ====
/-
  The upwind difference quotient, edge by edge.

  For an edge with source value `a`, destination value `b` and signed spacing `e` the operator computes
      q(a, b, e) = (b - a) / e   if a * e > 0,      0   otherwise,
  the division guarded by replacing `e` with `1` wherever the product is not positive. Both programs compute this
  one function at every edge; they differ only in the array layout they apply it on (a flat vector of edges, or the
  same edges laid out as rows of 128 lanes) and in how the two constants `0` and `1` are splatted. This file states
  the function once for an arbitrary shape in each of the two spellings, shows the spellings agree on the extended
  reals, and shows that applying it on a re-laid array and laying the result back is applying it on the original.
-/
import Idealize.ShloMosaic.PureOps.Ideal
import Idealize.ShloMosaic.Lib.Pipeline.Value

noncomputable section

namespace Cert.Upwind

open Idealize.ShloMosaic

variable {F : FTy → Type} [FloatOps F]

/-- The rank-0 shape of a scalar constant. -/
abbrev Sc : Shape := ⟨0, ![]⟩

/-! ## The quotient with its constants splatted as scalars (the vector unit's spelling) -/

/-- Where the product of source value and spacing is positive. -/
def pos (s : Shape) (a e : FVec F s .f32) : IVec s 1 :=
  cmpf .ogt (mulf a e) (broadcast s (Scalar.ofBits .f32 0x00000000#32))

/-- `(b - a) / e` on the positive edges, `0` elsewhere; the divisor is `1` off the positive edges. -/
def quot (s : Shape) (a b e : FVec F s .f32) : FVec F s .f32 :=
  select (pos s a e)
    (divf (subf b a) (select (pos s a e) e (broadcast s (Scalar.ofBits .f32 0x3F800000#32))))
    (broadcast s (Scalar.ofBits .f32 0x00000000#32))

/-- The quotient of one edge. -/
def quot1 (a b e : F .f32) : F .f32 :=
  Scalar.select (FloatOps.cmpf .ogt (FloatOps.mulf a e) (Scalar.ofBits .f32 0x00000000#32))
    (FloatOps.divf (FloatOps.subf b a)
      (Scalar.select (FloatOps.cmpf .ogt (FloatOps.mulf a e) (Scalar.ofBits .f32 0x00000000#32)) e (Scalar.ofBits .f32 0x3F800000#32)))
    (Scalar.ofBits .f32 0x00000000#32)

/-- The array quotient is the edge's quotient at every entry. -/
theorem quot_apply (s : Shape) (a b e : FVec F s .f32) (j : s.Idx) : quot s a b e j = quot1 (a j) (b j) (e j) := rfl

/-! ## The same with its constants broadcast from rank-0 tensors and the host's division -/

def hostPos (s : Shape) (hb : Sc.BroadcastsInDim s (![] : Fin 0 → Fin s.rank)) (a e : FVec F s .f32) : IVec s 1 :=
  cmpf .ogt (mulf a e) (broadcastInDim s ![] hb (constant Sc .f32 0x00000000#32))

def hostQuot (s : Shape) (hb : Sc.BroadcastsInDim s (![] : Fin 0 → Fin s.rank)) (a b e : FVec F s .f32) : FVec F s .f32 :=
  select (hostPos s hb a e)
    (Host.divf (subf b a) (select (hostPos s hb a e) e (broadcastInDim s ![] hb (constant Sc .f32 0x3F800000#32))))
    (broadcastInDim s ![] hb (constant Sc .f32 0x00000000#32))

/-- On the extended reals the two spellings are one function: a constant reads the same however it is splatted, and
    the host's quotient is the vector unit's (both are the exact quotient). -/
theorem hostQuot_eq_quot (s : Shape) (hb : Sc.BroadcastsInDim s (![] : Fin 0 → Fin s.rank)) (a b e : FVec Ideal s .f32) :
    hostQuot (F := Ideal) s hb a b e = quot (F := Ideal) s a b e := by
  funext i
  rfl

/-! ## Re-laying the edges -/

/-- The quotient is computed entry by entry, so it commutes with any re-laying of the entries. -/
theorem shapeCast_quot {s t : Shape} (h : s.ShapeCasts t) (a b e : FVec F s .f32) :
    shapeCast t (quot s a b e) h = quot t (shapeCast t a h) (shapeCast t b h) (shapeCast t e h) := rfl

/-- Lay the three operands out in shape `t`, take the quotient there, lay the result back in shape `s`: that is the
    quotient taken in shape `s`. -/
theorem quot_relaid {s t : Shape} (h : s.ShapeCasts t) (h' : t.ShapeCasts s) (a b e : FVec F s .f32) :
    shapeCast s (quot t (shapeCast t a h) (shapeCast t b h) (shapeCast t e h)) h' = quot s a b e := by
  rw [shapeCast_quot h', shapeCast_shapeCast, shapeCast_shapeCast, shapeCast_shapeCast]

end Cert.Upwind

end
-- ==== Proof.KernelValue.lean ====
/-
  What the kernel program leaves in its result, as one function of the three argument arrays.

  The program gathers the source and destination node values of every edge and takes the edges' spacings, lays
  each of the three edge vectors out as 125000 rows of 128 lanes, lets the pallas_call take the upwind quotient
  (`Cert.Upwind.quot`) of the three [125000, 128] arrays in 25 row-blocks of 5000 rows, lays the result back as a
  vector of 16000000 edges, and scatter-adds it onto the destination nodes.

  * Point `t` of the grid reads rows [5000 t, 5000 t + 5000) of each input and writes the same rows of the output,
    and the quotient is taken entry by entry: so the block it writes back is that block of the quotient of the whole
    arrays, and the 25 blocks cover the output. The output array ends as the quotient of the three arrays.
  * The three arrays the region finds are the edge vectors re-laid, and re-laying commutes with the quotient
    (`Cert.Upwind.quot_relaid`): the vector that is scatter-added is the quotient of the three edge vectors.
-/
import proofs.«168518_j51273319580074_1_alg».proof.Proof.Gen.KernelIdeal.Frame
import proofs.«168518_j51273319580074_1_alg».proof.Proof.Upwind
import Idealize.ShloMosaic.Lib.Pipeline.Value
import Idealize.ShloMosaic.Lib.StableHlo.Run

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The body's payload is the quotient of its three loaded blocks -/

theorem zero_offsets : (![0, 0] : Fin 2 → Nat) = fun _ => 0 := funext fun a => by fin_cases a <;> rfl

theorem payload_eq (x0 x1 x2 : Vec F S5000x128 .f32) : k0_pay1 x0 x1 x2 = Cert.Upwind.quot S5000x128 x0 x1 x2 := by
  unfold k0_pay1
  simp only [shapeCast_self]
  rfl

/-! ## Every window moves down the rows with the grid point -/

/-- The four index maps agree at every point: block row `t`, block column `0`, and `t` runs over 25 block rows. -/
theorem index_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 24 ∧ win0_3.index t (1 : Fin 2) = 0 :=
  (by decide +kernel : ∀ t : Fin grid0.N, _)

/-- Every block row is some point's. -/
theorem index_onto : ∀ q : Fin 25, ∃ t : Fin cfg0.N, win0_3.index t = ![q.val, 0] :=
  (by decide +kernel : ∀ q : Fin 25, ∃ t : Fin grid0.N, win0_3.index t = ![q.val, 0])

/-! ## The output array after the region -/

/-- The quotient of the three arrays the region finds. -/
abbrev laidQuot (c : Dev nD) : S125000x128.Idx → Elt F .f32 :=
  Cert.Upwind.quot S125000x128 (V m c main_v22) (V m c main_v23) (V m c main_v24)

/-- What point `t` writes back is block `t` of that quotient: each input block is read at the rows the output block
    covers, and the quotient is taken entry by entry. -/
theorem flushed_eq (c : Dev nD) (t : Fin cfg0.N) :
    (dats m 0 c).flushed 3 t = ((cfg0.win 3).blk t).view.read (Elt F) (laidQuot m c) := by
  show (cfg0.win 3).cut (grid0.coords t) ((dats m 0 c).after 3 t) = _
  rw [after0_3]
  unfold out0_3
  rw [View.canon_unit_zero zero_offsets]
  simp only [View.ld_unit_zero (S := S5000x128) zero_offsets]
  rw [payload_eq]
  obtain ⟨e0, e1, e2, e3, e4, e5, -, -⟩ := index_facts t
  funext j
  show Cert.Upwind.quot1 (V m c main_v22 (((cfg0.win 0).blk t).view.emb j)) (V m c main_v23 (((cfg0.win 1).blk t).view.emb j)) (V m c main_v24 (((cfg0.win 2).blk t).view.emb j))
    = Cert.Upwind.quot1 (V m c main_v22 (((cfg0.win 3).blk t).view.emb j)) (V m c main_v23 (((cfg0.win 3).blk t).view.emb j)) (V m c main_v24 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An index of the output array lies in point `t`'s block iff each coordinate lies in the block's range. -/
theorem mem_block (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25).slice (win0_3.rect t)).set ↔ _
  rw [View.set_slice_whole, Rect.mem_set_unit]
  exact Iff.rfl

/-- Row `r` is in the block of the point whose block row is `r / 5000`: the 25 blocks cover the array. -/
theorem covered (i : S125000x128.Idx) : ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the quotient of the three arrays the region found. -/
theorem output_array (c : Dev nD) : (dats m 0 c).arrAt 3 cfg0.N = laidQuot m c :=
  (dats m 0 c).arrAt_eq_of_cover 3 (laidQuot m c) (fun t _ => flushed_eq m c t) (covered)

/-! ## The edge vectors, as functions of the three argument arrays -/

/-- The node values: column 0 of the node table. -/
def nodeVals (x : FVec F S1000000x4 .f32) : FVec F S1000000 .f32 :=
  shapeCast S1000000 (extractStridedSlice S1000000x1 ![0, 0] x slices_S1000000x4_S1000000x1_0_0) shapeCasts_S1000000x1_S1000000

/-- The edges' signed spacings: column 0 of the edge attributes. -/
def spacings (ea : FVec F S16000000x2 .f32) : FVec F S16000000 .f32 :=
  shapeCast S16000000 (extractStridedSlice S16000000x1 ![0, 0] ea slices_S16000000x2_S16000000x1_0_0) shapeCasts_S16000000x1_S16000000

/-- The edges' source node ids: row 0 of the edge table. -/
def srcIds (ei : IVec S2x16000000 32) : IVec S16000000 32 :=
  shapeCast S16000000 (extractStridedSlice S1x16000000 ![0, 0] ei slices_S2x16000000_S1x16000000_0_0) shapeCasts_S1x16000000_S16000000

/-- The edges' destination node ids: row 1 of the edge table. -/
def dstIds (ei : IVec S2x16000000 32) : IVec S16000000 32 :=
  shapeCast S16000000 (extractStridedSlice S1x16000000 ![1, 0] ei slices_S2x16000000_S1x16000000_1_0) shapeCasts_S1x16000000_S16000000

/-- A vector of ids with the negative ones shifted up by the number of nodes, laid as a column of start indices. -/
def wrapped (r : IVec S16000000 32) : IVec S16000000x1 32 :=
  broadcastInDim S16000000x1 ![0] bcast_S16000000_S16000000x1_0
    (select (cmpi .slt r (broadcastInDim S16000000 ![] bcast_S_S16000000 (constantI S_ 32 0#32)))
      (addi r (broadcastInDim S16000000 ![] bcast_S_S16000000 (constantI S_ 32 1000000#32))) r)

/-- The node values gathered along a vector of ids. -/
def valuesAt (x : FVec F S1000000x4 .f32) (r : IVec S16000000 32) : FVec F S16000000 .f32 :=
  Host.gather gather_S1000000_S16000000x1_S16000000_n_0_n_n_0_1_1 (nodeVals x) (wrapped r)

/-- An edge vector summed onto the edges' destination nodes, from zero. -/
def nodeSums (ei : IVec S2x16000000 32) (q : FVec F S16000000 .f32) : FVec F S1000000 .f32 :=
  Host.scatterAdd scatter_S1000000_S16000000x1_S16000000_n_0_0_1
    (broadcastInDim S1000000 ![] bcast_S_S1000000 (constant S_ .f32 0x00000000#32))
    (broadcastInDim S16000000x1 ![0] bcast_S16000000_S16000000x1_0 (dstIds ei)) q

/-- THE RESULT: the upwind quotient of (source value, destination value, spacing) of every edge, summed onto the
    destination nodes. -/
def result (x : FVec F S1000000x4 .f32) (ei : IVec S2x16000000 32) (ea : FVec F S16000000x2 .f32) : FVec F S1000000 .f32 :=
  nodeSums ei (Cert.Upwind.quot S16000000 (valuesAt x (srcIds ei)) (valuesAt x (dstIds ei)) (spacings ea))

/-! ## What the region finds, and what the lines after it compute -/

/-- The three argument arrays of core `c`, as launched. -/
abbrev nodes (c : Dev nD) : FVec F S1000000x4 .f32 := m ((c.tc : Thread nD τ).loc main_arg0)
abbrev edges (c : Dev nD) : IVec S2x16000000 32 := m ((c.tc : Thread nD τ).loc main_arg1)
abbrev attrs (c : Dev nD) : FVec F S16000000x2 .f32 := m ((c.tc : Thread nD τ).loc main_arg2)

/-- Window 0's array: the source values, 128 edges to a row. -/
theorem entry_src (c : Dev nD) : (V m c main_v22 : S125000x128.Idx → Elt F .f32)
    = shapeCast S125000x128 (valuesAt (nodes m c) (srcIds (edges m c))) shapeCasts_S16000000_S125000x128 := by
  show StableHlo.after hostOps0 (fun b => m (c, b)) (Proc.devRef .tc main_v22) = _
  after_results
  rfl

/-- Window 1's array: the destination values, 128 edges to a row. -/
theorem entry_dst (c : Dev nD) : (V m c main_v23 : S125000x128.Idx → Elt F .f32)
    = shapeCast S125000x128 (valuesAt (nodes m c) (dstIds (edges m c))) shapeCasts_S16000000_S125000x128 := by
  show StableHlo.after hostOps0 (fun b => m (c, b)) (Proc.devRef .tc main_v23) = _
  after_results
  rfl

/-- Window 2's array: the spacings, 128 edges to a row. -/
theorem entry_spacing (c : Dev nD) : (V m c main_v24 : S125000x128.Idx → Elt F .f32)
    = shapeCast S125000x128 (spacings (attrs m c)) shapeCasts_S16000000_S125000x128 := by
  show StableHlo.after hostOps0 (fun b => m (c, b)) (Proc.devRef .tc main_v24) = _
  after_results
  rfl

/-- The destination ids, which the lines after the region read again. -/
theorem entry_dstIds (c : Dev nD) : (V m c main_v7 : S16000000.Idx → BitVec 32) = dstIds (edges m c) := by
  show StableHlo.after hostOps0 (fun b => m (c, b)) (Proc.devRef .tc main_v7) = _
  after_results
  rfl

/-- The lines after the region lay the output array back as an edge vector and sum it onto the destination nodes. -/
theorem tail_eq (c : Dev nD) :
    (Pipeline.afterTail₀ cfgs (dats m) 0 (V0 m) [hostOps1] c main_v29 : S1000000.Idx → Elt F .f32)
      = nodeSums (edges m c) (shapeCast S16000000 ((dats m 0 c).arrAt 3 cfg0.N) shapeCasts_S125000x128_S16000000) := by
  unfold Pipeline.afterTail₀
  show StableHlo.after hostOps1 _ (Proc.devRef .tc main_v29) = _
  after_results
  have hA := Pipeline.withArrays_arr spec0 launch0.win.arr_inj c (V0 m c) (fun w => (dats m 0 c).arrAt w cfg0.N) 3
  have hC := Pipeline.withArrays_of_ne spec0 c (V0 m c) (fun w => (dats m 0 c).arrAt w cfg0.N) main_v7 (by exact (by decide : ∀ w, Pipeline.arrRef spec0 w ≠ main_v7))
  have hD : Pipeline.withArrays spec0 c (V0 m c) (fun w => (dats m 0 c).arrAt w cfg0.N) (Proc.devRef .tc main_v7) = dstIds (edges m c) :=
    hC.trans (entry_dstIds m c)
  show Host.scatterAdd _ _
      (broadcastInDim S16000000x1 ![0] bcast_S16000000_S16000000x1_0
        (Pipeline.withArrays spec0 c (V0 m c) (fun w => (dats m 0 c).arrAt w cfg0.N) (Proc.devRef .tc main_v7)))
      (shapeCast S16000000
        (Pipeline.withArrays spec0 c (V0 m c) (fun w => (dats m 0 c).arrAt w cfg0.N) (Proc.devRef .tc (Pipeline.arrRef spec0 3)))
        shapeCasts_S125000x128_S16000000) = _
  rw [hA, hD]
  rfl

/-- The vector that is summed is the upwind quotient of the three edge vectors: the region took it on the re-laid
    arrays, and re-laying commutes with it. -/
theorem summed_vector (c : Dev nD) :
    shapeCast S16000000 ((dats m 0 c).arrAt 3 cfg0.N) shapeCasts_S125000x128_S16000000
      = Cert.Upwind.quot S16000000 (valuesAt (nodes m c) (srcIds (edges m c))) (valuesAt (nodes m c) (dstIds (edges m c))) (spacings (attrs m c)) := by
  rw [output_array]
  show shapeCast S16000000 (Cert.Upwind.quot S125000x128 (V m c main_v22) (V m c main_v23) (V m c main_v24)) shapeCasts_S125000x128_S16000000 = _
  rw [entry_src, entry_dst, entry_spacing]
  exact Cert.Upwind.quot_relaid shapeCasts_S16000000_S125000x128 shapeCasts_S125000x128_S16000000 _ _ _

/-- The program's result buffer after the lines that follow the region. -/
theorem result_eq (c : Dev nD) :
    (Pipeline.afterTail₀ cfgs (dats m) 0 (V0 m) [hostOps1] c main_v29 : S1000000.Idx → Elt F .f32)
      = result (nodes m c) (edges m c) (attrs m c) := by
  rw [tail_eq, summed_vector]
  rfl

/-! ## The run -/

/-- Every weakly fair execution of the program terminates with its result at `result` of the three argument arrays,
    and the arguments as launched. -/
theorem run : θ_run defs (onTc (τ := τ) (main (F := F))) ⟨m, fun _ => 0, ρ⟩ fun r => ∀ c : Dev nD,
      r.2.mem ((c.tc : Thread nD τ).loc main_v29) = result (nodes m c) (edges m c) (attrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v29 (Pipeline.mem_restRefs_of main_v29 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.EdgeValue

end
-- ==== Proof.ReferenceValue.lean ====
/-
  What the reference program computes is the same function of the three argument arrays.

  The reference gathers the source and destination node values of every edge exactly as the kernel program does,
  takes the upwind quotient on the flat edge vectors with host operations (its two constants broadcast from rank-0
  tensors, its quotient the host's division), and scatter-adds the result onto the destination nodes exactly as the
  kernel program does. On the extended reals the host's spelling of the quotient is the vector unit's
  (`Cert.Upwind.hostQuot_eq_quot`), and everything around it is the same text.
-/
import proofs.«168518_j51273319580074_1_alg».proof.Proof.Gen.ReferenceIdeal.Run
import proofs.«168518_j51273319580074_1_alg».proof.Proof.KernelValue

set_option maxRecDepth 16384

noncomputable section

namespace Cert.ReferenceIdeal.RefValue

open Idealize.ShloMosaic Idealize.ShloMosaic.TcCoe Idealize.SL.Sem

/-- The reference's result, on the extended reals, is the sum onto the destination nodes of the edges' upwind
    quotients: the function `Cert.KernelIdeal.EdgeValue.result` of its three argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.KernelIdeal.EdgeValue.result (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := by
  show Cert.ReferenceIdeal.Value.res_main_v31 (F := Ideal) m c = _
  unfold Cert.ReferenceIdeal.Value.res_main_v31 Cert.KernelIdeal.EdgeValue.result
  rw [← Cert.Upwind.hostQuot_eq_quot Cert.KernelIdeal.S16000000 Cert.KernelIdeal.Facts₀.bcast_S_S16000000]
  rfl

end Cert.ReferenceIdeal.RefValue

end
-- ==== Proof.lean ====
/-
  The certificate of the upwind derivative operator on a graph of 1000000 nodes and 16000000 edges.

  Both programs compute, for every edge with source value `a`, destination value `b` and signed spacing `e`, the
  upwind quotient `(b - a) / e` where `a * e > 0` and `0` elsewhere, and sum the quotients onto the edges'
  destination nodes. The kernel program takes the quotient inside a pallas_call on the edge vectors laid out as
  [125000, 128] arrays, in 25 row-blocks; the reference takes it on the flat vectors with host operations. The gathers
  before and the scatter-add after are the same operations in both.

  * Frames: the kernel program's are its generated frame at either instance; the reference's is its generated run
    with the result dropped.
  * The idealization rewrote nothing, so there is nothing to preserve.
  * Equal results on the extended reals: the kernel program ends at `Cert.KernelIdeal.EdgeValue.result` of its
    argument arrays (Proof/KernelValue.lean: the blocks cover the output, and re-laying the edges commutes with a
    quotient taken entry by entry), and the reference's term is that same function (Proof/ReferenceValue.lean: the
    host's spelling of the quotient is the vector unit's). No finiteness is used: the two sides are the same
    operations on the same entries.
-/
import proofs.«168518_j51273319580074_1_alg».proof.Defs
import proofs.«168518_j51273319580074_1_alg».proof.Proof.Gen.Kernel
import proofs.«168518_j51273319580074_1_alg».proof.Proof.Gen.Kernel.Frame
import proofs.«168518_j51273319580074_1_alg».proof.Proof.Gen.KernelIdeal
import proofs.«168518_j51273319580074_1_alg».proof.Proof.Gen.KernelIdeal.Frame
import proofs.«168518_j51273319580074_1_alg».proof.Proof.Gen.ReferenceIdeal
import proofs.«168518_j51273319580074_1_alg».proof.Proof.Gen.ReferenceIdeal.Run
import proofs.«168518_j51273319580074_1_alg».proof.Proof.Gen.Pre_finite_inputs
import proofs.«168518_j51273319580074_1_alg».proof.Proof.KernelValue
import proofs.«168518_j51273319580074_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its run terminates with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the edges' upwind quotients summed onto the destination nodes: one function of
    argument arrays that agree. -/
theorem algebraic : Cert.algebraic_KernelIdeal_ReferenceIdeal := by
  intro m ρ m' ρ' _ hagree
  refine ⟨_, Cert.KernelIdeal.EdgeValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
